-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S128x128 : Shape := ⟨2, ![128, 128]⟩
abbrev S128 : Shape := ⟨1, ![128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S524288x128 .f32) (main_arg1 : FVec F S128x128 .f32) (main_arg2 : FVec F S128x128 .f32) (main_arg3 : FVec F S128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S524288x128 : Shape := ⟨2, ![524288, 128]⟩
abbrev S128x128 : Shape := ⟨2, ![128, 128]⟩
abbrev S128 : Shape := ⟨1, ![128]⟩
abbrev S1x128 : Shape := ⟨2, ![1, 128]⟩
abbrev S8192x128 : Shape := ⟨2, ![8192, 128]⟩

abbrev nBuf : Space → Nat
  | .hbm => 6
  | .vmem => 7
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S524288x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S8192x128, .f32⟩
  | .local _ .vmem, ⟨6, _⟩ => ⟨S8192x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S128x128_S128x128_0_0 : ∀ a, (![0, 0] : Fin 2 → Nat) a + S128x128.size a ≤ S128x128.size a
  h_S128x128 : 0 < S128x128.numel
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S524288x128.size a
  hwx0_4 : ∀ i : grid0.Coords, EltTy.bits .f32 = 32 ∨ (Rect.block (s := S524288x128) S8192x128.size (cc0_transform_4 i) (hinb0_4 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S524288x128 : Shape := ⟨2, ![524288, 128]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 31
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S128x128, .f32⟩
  | .hbm, ⟨6, _⟩ => ⟨S128x128, .i1⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S_, .f32⟩
  | .hbm, ⟨14, _⟩ => ⟨S128x128, .f32⟩
  | .hbm, ⟨15, _⟩ => ⟨S128x128, .i1⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S524288x128, .f32⟩
  | .hbm, ⟨28, _⟩ => ⟨S1x128, .f32⟩
  | .hbm, ⟨29, _⟩ => ⟨S524288x128, .f32⟩
  | .hbm, ⟨30, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_v7 : Ref sig .tc := ⟨.hbm, 21, rfl⟩
abbrev main_v8 : Ref sig .tc := ⟨.hbm, 22, rfl⟩
abbrev main_cst_5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩

abbrev nD : Nat := 1
abbrev τ : Topo := Topo.v7x

variable {F : FTy → Type} [FloatOps F]

class Facts₀ : Prop where
  bcast_S_S128x128 : S_.BroadcastsInDim S128x128 (![] : Fin 0 → Fin S128x128.rank)
  transposes_S128x128_S128x128_1_0 : S128x128.Transposes [1, 0] S128x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  dot_S524288x128_S128x128_S524288x128_1_0_0_1_n_n_wf : DotDims.WF S524288x128 S128x128 S524288x128 [1] [0] [0] [1] [] []

variable [Facts₀]

def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf

class Facts : Prop extends Facts₀ where

variable [Facts]
-- ==== Proof.Spec.lean ====
/-
  The function both programs compute, over the extended reals.

  For a weight `w` put `s(w) = 1` where `w ≥ 0` and `s(w) = -1` elsewhere. The ternary weight matrix is
  `T[o, k] = (s(wp[o, k]) - s(wn[o, k])) · ½` (its entries lie in {-1, 0, 1}), and the layer is
  `out[r, o] = Σ_k x[r, k] · T[o, k] + bias[o]`: row `r` of `x` against row `o` of `T`, the contraction
  running over the 128 input features. Both programs are this sum term by term — the kernel contracts the
  transposed matrix it builds in place, the reference the transposed matrix it builds on the host — so no
  law of the extended reals beyond `0 + a = a` is used, and finiteness of the inputs plays no part.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace TernaryLinear

open Idealize.ShloMosaic Idealize.ShloMosaic.ValueIdx

/-- The activations' shape, [524288, 128]; also the result's. -/
abbrev SX : Shape := ⟨2, ![524288, 128]⟩
/-- A weight matrix's shape, [128 outputs, 128 inputs]. -/
abbrev SW : Shape := ⟨2, ![128, 128]⟩
/-- The bias vector's shape. -/
abbrev SB : Shape := ⟨1, ![128]⟩

/-- The two-valued sign: `1` where `w ≥ 0`, `-1` elsewhere. -/
def sgn (w : EReal) : EReal := Scalar.select (Ideal.cmp .oge w 0) 1 (-1)

/-- One half, as the f32 word both programs carry; it is never evaluated. -/
def half : EReal := Ideal.ofBits .f32 0x3F000000#32

/-- The ternary weight at output `o`, input `k`. -/
def tern (wp wn : SW.Idx → EReal) (o k : Fin 128) : EReal :=
  (sgn (wp (ix2 o k)) - sgn (wn (ix2 o k))) * half

/-- The layer: `out[r, o] = Σ_k x[r, k] · T[o, k] + bias[o]`. -/
def layer (x : SX.Idx → EReal) (wp wn : SW.Idx → EReal) (b : SB.Idx → EReal) : SX.Idx → EReal :=
  fun i => (∑ k : Fin 128, x (ix2 (i 0) k) * tern wp wn (i 1) k) + b (ix1 (i 1))

/-- The f32 word of minus one is the extended real `-1`. -/
theorem ofBits_neg_one_f32 : Ideal.ofBits .f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]; norm_num

/-- The kernel's spelling of the sign: a select between the words of `1` and `-1` on the test against the word of `0`. -/
theorem sgn_of_words (w : EReal) :
    Scalar.select (Ideal.cmp .oge w (Ideal.ofBits .f32 0x00000000#32)) (Ideal.ofBits .f32 0x3F800000#32)
      (Ideal.ofBits .f32 0xBF800000#32) = sgn w := by
  rw [Ideal.ofBits_zero_f32, Ideal.ofBits_one_f32, ofBits_neg_one_f32]; rfl

/-- The reference's spelling: the `-1` is the negation of the word of `1`. -/
theorem sgn_of_neg (w : EReal) :
    Scalar.select (Ideal.cmp .oge w (Ideal.ofBits .f32 0x00000000#32)) (Ideal.ofBits .f32 0x3F800000#32)
      (-(Ideal.ofBits .f32 0x3F800000#32)) = sgn w := by
  rw [Ideal.ofBits_zero_f32, Ideal.ofBits_one_f32]; rfl

end TernaryLinear

end
-- ==== Proof.RefValue.lean ====
/-
  The reference's result, read one operation at a time, is the layer
  `out[r, o] = Σ_k x[r, k] · T[o, k] + bias[o]`.

  The host program builds `T` as a [128, 128] array (its `-1` the negation of `1`), transposes it, contracts
  `x`'s second axis with the transposed array's first, and adds the bias broadcast along the rows. Read at
  the index `(r, o)` the transposition sends `(k, o)` back to `(o, k)`, which is the entry of `T` the layer names.
-/
import proofs.«126079_j38998303048322_1_alg».proof.Proof.Gen.ReferenceIdeal.Read
import proofs.«126079_j38998303048322_1_alg».proof.Proof.Spec

noncomputable section

open scoped BigOperators

namespace Cert.ReferenceIdeal.RefValue

open Cert.ReferenceIdeal Cert.ReferenceIdeal.Read Idealize.ShloMosaic Idealize.ShloMosaic.ValueIdx TernaryLinear

/-- The left operand of the contraction at `(r, o)`, `k` is `x[r, k]`. -/
theorem lidx_eq (i : S524288x128.Idx) (k : Fin 128) : lidx_main_v12 i k = ix2 (i 0) k :=
  funext fun a => Fin.ext (by match a with | ⟨0, _⟩ => rfl | ⟨1, _⟩ => rfl)

/-- The right operand at `(r, o)`, `k` is the transposed array at `(k, o)`, that is `T[o, k]`. -/
theorem ridx_eq (i : S524288x128.Idx) (k : Fin 128) : idx_main_v11 (ridx_main_v12 i k) = ix2 (i 1) k :=
  funext fun a => Fin.ext (by match a with | ⟨0, _⟩ => rfl | ⟨1, _⟩ => rfl)

/-- The bias row broadcast along the rows, at `(r, o)`, is `bias[o]`. -/
theorem bidx_eq (i : S524288x128.Idx) : idx_main_v13 (idx_main_v14 i) = ix1 (i 1) :=
  funext fun a => Fin.ext (by match a with | ⟨0, _⟩ => rfl)

/-- The host's ternary weight array at `(o, k)`. -/
theorem weight_apply (x1 x2 : S128x128.Idx → EReal) (q : S128x128.Idx) :
    val_main_v10 (F := Ideal) x1 x2 q = (sgn (x1 q) - sgn (x2 q)) * half := by
  rw [val_main_v10_apply, val_main_v8_apply, val_main_v3_apply, val_main_v7_apply, val_main_v1_apply, val_main_v5_apply,
    val_main_v0_apply, val_main_v4_apply, val_main_call0_v0_apply, val_main_call0_v1_apply, val_main_call1_v0_apply,
    val_main_call1_v1_apply, val_main_v9_apply, val_main_v2_apply, val_main_v6_apply, val_main_cst_apply,
    val_main_cst_0_apply, val_main_cst_1_apply, val_main_cst_2_apply, val_main_cst_3_apply, val_main_cst_4_apply,
    val_main_cst_5_apply]
  simp only [Ideal.mulf_def, Ideal.subf_def, Ideal.cmpf_def, Ideal.ofBits_def, Ideal.hostNegf_def, Ideal.negf_def,
    sgn_of_neg]
  rfl

/-- The reference's result array is the layer of its arguments. -/
theorem result_eq_layer (x0 : S524288x128.Idx → EReal) (x1 x2 : S128x128.Idx → EReal) (x3 : S128.Idx → EReal) :
    val_main_v15 (F := Ideal) x0 x1 x2 x3 = layer x0 x1 x2 x3 := by
  funext i
  rw [val_main_v15_apply, val_main_v12_apply, val_main_v14_apply, val_main_v13_apply, bidx_eq]
  show (∑ k : Fin 128, x0 (lidx_main_v12 i k) * val_main_v11 (F := Ideal) x1 x2 (ridx_main_v12 i k)) + x3 (ix1 (i 1)) = _
  unfold layer
  refine congrArg (· + x3 (ix1 (i 1))) (Finset.sum_congr rfl fun k _ => ?_)
  rw [val_main_v11_apply, weight_apply, lidx_eq, ridx_eq]
  rfl

end Cert.ReferenceIdeal.RefValue

end
-- ==== Proof.KernelPayload.lean ====
/-
  The kernel body's one stored value, read at an element of the output block.

  At a grid point the body holds a block of 8192 rows of `x`, the two whole weight matrices and the bias row.
  It forms the ternary matrix `T[o, k] = (s(wp[o, k]) - s(wn[o, k])) · ½`, transposes it, contracts the block's
  second axis with the transposed matrix's first into a zero accumulator, and adds the bias row to every
  row. At element `(p, o)` of the block that is `Σ_k x[p, k] · T[o, k] + bias[0, o]`: the changes of float
  format are the identity on the extended reals, the zero accumulator contributes `0 + ·`, and the
  transposition sends `(k, o)` back to `(o, k)`.
-/
import proofs.«126079_j38998303048322_1_alg».proof.Proof.Gen.KernelIdeal.Skeleton
import proofs.«126079_j38998303048322_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.TcCoe Idealize.ShloMosaic.ValueIdx TernaryLinear

/-! ## The contraction's operand indices, axis by axis -/

theorem lhs_axis0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_axis1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_axis0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_axis1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The matrix product into a zero accumulator at `(p, o)`: the sum over the 128 shared coordinates of the left
    operand's row `p` against the right operand's column `o`. -/
theorem product_at (l : FVec Ideal S8192x128 .bf16) (r : FVec Ideal S128x128 .bf16) (i : S8192x128.Idx) :
    matmul dot_S8192x128_S128x128_S8192x128_1_0_0_1_n_n none l r (constant (F := Ideal) S8192x128 .f32 0x00000000#32) i
      = ∑ k : Fin 128, l (ix2 (i 0) k) * r (ix2 k (i 1)) := by
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx i ((contrEquiv1 dot_S8192x128_S128x128_S8192x128_1_0_0_1_n_n 128 rfl rfl).symm k) = ix2 (i 0) k := funext fun a => Fin.ext (by
    match a with
    | ⟨0, _⟩ => exact lhs_axis0 _ _
    | ⟨1, _⟩ => exact (lhs_axis1 _ _).trans hk)
  have er : dot_S8192x128_S128x128_S8192x128_1_0_0_1_n_n.rhsIdx i ((contrEquiv1 dot_S8192x128_S128x128_S8192x128_1_0_0_1_n_n 128 rfl rfl).symm k) = ix2 k (i 1) := funext fun a => Fin.ext (by
    match a with
    | ⟨0, _⟩ => exact (rhs_axis0 _ _).trans hk
    | ⟨1, _⟩ => exact rhs_axis1 _ _)
  rw [el, er]
  rfl

/-- The transposed matrix at `(k, o)` is the matrix at `(o, k)`. -/
theorem transposed_at {α : Type} (v : S128x128.Idx → α) (k o : Fin 128) :
    transpose S128x128 [1, 0] v transposes_S128x128_p1_0_S128x128 (ix2 k o) = v (ix2 o k) :=
  transpose_apply [1, 0] v transposes_S128x128_p1_0_S128x128 (ix2 k o) (ix2 o k) (fun b => match b with
    | ⟨0, _⟩ => rfl
    | ⟨1, _⟩ => rfl)

/-- The bias row broadcast to the block's 8192 rows, at `(p, o)`, is the row's entry `o`. -/
theorem bias_at {α : Type} (v : S1x128.Idx → α) (p : Fin 8192) (o : Fin 128) :
    broadcastTo S8192x128 (shapeCast S1x128 v shapeCasts_S1x128_S1x128) broadcasts_S1x128_S8192x128 (ix2 p o)
      = v (ix2 (0 : Fin 1) o) := by
  rw [shapeCast_self]
  exact broadcastTo_apply v broadcasts_S1x128_S8192x128 (ix2 p o) (ix2 (0 : Fin 1) o) (fun a => match a with
    | ⟨0, _⟩ => by show 0 = if (1 : Nat) = 1 then 0 else _; rw [if_pos rfl]
    | ⟨1, _⟩ => by show o.val = if (128 : Nat) = 1 then 0 else _; rw [if_neg (by decide)]; rfl)

/-- THE PAYLOAD at element `(p, o)` of the block. -/
theorem payload_at (wp wn : Vec Ideal S128x128 .f32) (x : Vec Ideal S8192x128 .f32) (b : Vec Ideal S1x128 .f32)
    (p : Fin 8192) (o : Fin 128) :
    k0_pay1 (F := Ideal) wp wn x b (ix2 p o)
      = (∑ k : Fin 128, x (ix2 p k) * ((sgn (wp (ix2 o k)) - sgn (wn (ix2 o k))) * half)) + b (ix2 (0 : Fin 1) o) := by
  unfold k0_pay1
  dsimp only
  rw [addf_apply, product_at, bias_at]
  refine congrArg (· + b (ix2 (0 : Fin 1) o)) (Finset.sum_congr rfl fun k _ => ?_)
  rw [transposed_at]
  show x (ix2 p k) * _ = _
  refine congrArg (x (ix2 p k) * ·) ?_
  simp only [truncf_apply, mulf_apply, subf_apply, select_apply, cmpf_apply, broadcast_apply, Ideal.cmpf_def,
    Ideal.ofBits_def, sgn_of_words]
  rfl

end Cert.KernelIdeal.Payload

end
-- ==== Proof.KernelValue.lean ====
/-
  From the kernel's blocks to its result array.

  The grid has 64 points. Point `t` holds rows `8192·t … 8192·t + 8191` of `x`, both weight matrices whole and
  the bias row, and writes back rows `8192·t … 8192·t + 8191` of the result. By the payload read at an element,
  what point `t` writes at `(p, o)` is `Σ_k x[8192·t + p, k] · T[o, k] + bias[o]`, which is the layer at
  `(8192·t + p, o)`: every point writes its own block of ONE function of the argument arrays. The 64 blocks
  tile the 524288 rows (row `r` lies in the block of point `r / 8192`), so the result array ends holding the
  layer. The bias reaches the kernel as a [1, 128] array the host reshaped from the [128] argument; entry
  `(0, o)` of the one is entry `o` of the other.
-/
import proofs.«126079_j38998303048322_1_alg».proof.Proof.Gen.KernelIdeal.Value
import proofs.«126079_j38998303048322_1_alg».proof.Proof.KernelPayload
import Idealize.ShloMosaic.Lib.StableHlo.Run

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx TernaryLinear
open Idealize.ShloMosaic.Pipeline (Dat)

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- The arrays the region's four input windows stage, as the region finds them on core `c`, at their literal
    types: the activations, the two weight matrices, and the bias as the [1, 128] row the host reshaped. -/
abbrev acts (c : Dev nD) : S524288x128.Idx → EReal := V m c main_arg0
abbrev wpos (c : Dev nD) : S128x128.Idx → EReal := V m c main_arg1
abbrev wneg (c : Dev nD) : S128x128.Idx → EReal := V m c main_arg2
abbrev brow (c : Dev nD) : S1x128.Idx → EReal := V m c main_v0

/-- The layer of the argument arrays as the region finds them on core `c`. -/
abbrev result (c : Dev nD) : S524288x128.Idx → EReal :=
  layer (acts m c) (wpos m c) (wneg m c) (m ((c : Thread nD τ).loc main_arg3))

/-! ## The bias row the host reshaped -/

/-- The [1, 128] array the region stages as its bias window is the [128] argument reshaped. -/
theorem bias_row (c : Dev nD) :
    (V m c main_v0 : S1x128.Idx → EReal) = shapeCast S1x128 (m ((c : Thread nD τ).loc main_arg3)) shapeCasts_S128_S1x128 := by
  dsimp only [V, hostOps0]; after_results; rfl

/-- Its entry `(0, o)` is the argument's entry `o`. -/
theorem bias_row_at (c : Dev nD) (z : Fin 1) (o : Fin 128) :
    (V m c main_v0 : S1x128.Idx → EReal) (ix2 z o) = m ((c : Thread nD τ).loc main_arg3) (ix1 o) := by
  rw [bias_row]
  refine shapeCast_apply _ shapeCasts_S128_S1x128 (ix2 z o) (ix1 o) ?_
  rw [Shape.rowMajor_val_one, Shape.rowMajor_val_two]
  have hz : z.val = 0 := by omega
  show o.val = z.val * 128 + o.val
  omega

/-! ## The index maps, decided over the 64 points -/

/-- The `x` window moves with the result window down the rows; the weight and bias windows stay at block 0;
    the result window's row block index is below 64 and its column block index is 0. -/
theorem index_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 63 ∧ win0_4.index t (1 : Fin 2) = 0 :=
  (by decide +kernel : ∀ t : Fin grid0.N, _)

/-- Every row block is some point's. -/
theorem index_onto : ∀ q : Fin 64, ∃ t : Fin cfg0.N, win0_4.index t = ![q.val, 0] :=
  (by decide +kernel : ∀ q : Fin 64, ∃ t : Fin grid0.N, win0_4.index t = ![q.val, 0])

/-! ## What a point writes back -/

/-- WHAT POINT `t` WRITES BACK is block `t` of the layer. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero origin]
  simp only [View.ld_unit_zero (S := S8192x128) origin, View.ld_unit_zero (S := S128x128) origin,
    View.ld_unit_zero (S := S1x128) origin]
  obtain ⟨e0r, e0c, e1r, e1c, e2r, e2c, e3r, e3c, e4r, e4c⟩ := index_facts t
  funext j
  obtain ⟨p, o, rfl⟩ : ∃ (p : Fin 8192) (o : Fin 128), j = ix2 p o := ⟨j 0, j 1, eq_ix2 j⟩
  show k0_pay1 (F := Ideal) (iblk m c 1 t) (iblk m c 2 t) (iblk m c 0 t) (iblk m c 3 t) (ix2 p o)
    = result m c (((cfg0.win 4).blk t).view.emb (ix2 p o))
  refine (Payload.payload_at (iblk m c 1 t) (iblk m c 2 t) (iblk m c 0 t) (iblk m c 3 t) p o).trans ?_
  -- each input block, read where the output element's row and column say
  have hx : ∀ k : Fin 128, ((cfg0.win 0).blk t).view.emb (ix2 p k)
      = ix2 ((((cfg0.win 4).blk t).view.emb (ix2 p o)) 0) k := fun k => by
    funext a; apply Fin.ext
    match a with
    | ⟨0, _⟩ => show win0_0.index t (0 : Fin 2) * 8192 + 1 * p.val = win0_4.index t (0 : Fin 2) * 8192 + 1 * p.val; omega
    | ⟨1, _⟩ => show win0_0.index t (1 : Fin 2) * 128 + 1 * k.val = k.val; omega
  have hp : ∀ k : Fin 128, ((cfg0.win 1).blk t).view.emb (ix2 o k)
      = ix2 ((((cfg0.win 4).blk t).view.emb (ix2 p o)) 1) k := fun k => by
    funext a; apply Fin.ext
    match a with
    | ⟨0, _⟩ => show win0_1.index t (0 : Fin 2) * 128 + 1 * o.val = win0_4.index t (1 : Fin 2) * 128 + 1 * o.val; omega
    | ⟨1, _⟩ => show win0_1.index t (1 : Fin 2) * 128 + 1 * k.val = k.val; omega
  have hn : ∀ k : Fin 128, ((cfg0.win 2).blk t).view.emb (ix2 o k)
      = ix2 ((((cfg0.win 4).blk t).view.emb (ix2 p o)) 1) k := fun k => by
    funext a; apply Fin.ext
    match a with
    | ⟨0, _⟩ => show win0_2.index t (0 : Fin 2) * 128 + 1 * o.val = win0_4.index t (1 : Fin 2) * 128 + 1 * o.val; omega
    | ⟨1, _⟩ => show win0_2.index t (1 : Fin 2) * 128 + 1 * k.val = k.val; omega
  have hb : ((cfg0.win 3).blk t).view.emb (ix2 (0 : Fin 1) o)
      = ix2 (0 : Fin 1) ((((cfg0.win 4).blk t).view.emb (ix2 p o)) 1) := by
    funext a; apply Fin.ext
    match a with
    | ⟨0, _⟩ => show win0_3.index t (0 : Fin 2) * 1 + 1 * 0 = 0; omega
    | ⟨1, _⟩ => show win0_3.index t (1 : Fin 2) * 128 + 1 * o.val = win0_4.index t (1 : Fin 2) * 128 + 1 * o.val; omega
  unfold result layer
  refine congrArg₂ (· + ·) (Finset.sum_congr rfl fun k _ => ?_) ?_
  · show acts m c (((cfg0.win 0).blk t).view.emb (ix2 p k))
        * ((sgn (wpos m c (((cfg0.win 1).blk t).view.emb (ix2 o k)))
            - sgn (wneg m c (((cfg0.win 2).blk t).view.emb (ix2 o k)))) * half) = _
    rw [hx, hp, hn]
    rfl
  · show brow m c (((cfg0.win 3).blk t).view.emb (ix2 (0 : Fin 1) o)) = _
    rw [hb]
    exact bias_row_at m c 0 _

/-! ## The blocks tile the array -/

/-- An index of the result array is in point `t`'s block iff each coordinate is in the block's range on its axis. -/
theorem mem_block (t : Fin cfg0.N) (i : S524288x128.Idx) :
    i ∈ ((cfg0.win 4).blk t).view.set ↔ ∀ a : Fin 2, win0_4.index t a * S8192x128.size a ≤ (i a).val ∧ (i a).val < win0_4.index t a * S8192x128.size a + S8192x128.size a := by
  show i ∈ ((View.whole main_v1).slice (win0_4.rect t)).set ↔ _
  rw [View.set_slice_whole, Rect.mem_set_unit]
  exact Iff.rfl

/-- Row `r` lies in the block of the point whose row block index is `r / 8192`. -/
theorem covered (i : S524288x128.Idx) :
    ∃ t : Fin cfg0.N, (cfg0.win 4).flush t = true ∧ i ∈ ((cfg0.win 4).blk t).view.set := by
  have hi0 : (i 0).val < 524288 := (i 0).isLt
  have hi1 : (i 1).val < 128 := (i 1).isLt
  obtain ⟨t, ht⟩ := index_onto ⟨(i 0).val / 8192, by omega⟩
  have q0 : win0_4.index t (0 : Fin 2) = (i 0).val / 8192 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 8192 ≤ (i 0).val ∧ (i 0).val < win0_4.index t (0 : Fin 2) * 8192 + 8192; omega
  | ⟨1, _⟩ => show win0_4.index t (1 : Fin 2) * 128 ≤ (i 1).val ∧ (i 1).val < win0_4.index t (1 : Fin 2) * 128 + 128; omega

/-! ## The result array, and the run -/

/-- THE RESULT ARRAY after the run is the layer of the argument arrays. -/
theorem final (c : Dev nD) :
    (dats m 0 c).arrAt 4 cfg0.N
      = layer (m ((c : Thread nD τ).loc main_arg0)) (m ((c : Thread nD τ).loc main_arg1))
          (m ((c : Thread nD τ).loc main_arg2)) (m ((c : Thread nD τ).loc main_arg3)) := by
  rw [(dats m 0 c).arrAt_eq_of_cover 4 (result m c) (fun t _ => flushed_eq m c t) covered]
  show layer (V m c main_arg0) (V m c main_arg1) (V m c main_arg2) _ = _
  rw [V_main_arg0, V_main_arg1, V_main_arg2]

/-- Every weakly fair execution of the idealized kernel ends with the result array at the layer of the
    arguments and the arguments unchanged. -/
theorem run : θ_run defs (onTc (τ := τ) (main (F := Ideal))) ⟨m, fun _ => 0, ρ⟩ fun r => ∀ c : Dev nD,
      r.2.mem ((c : Thread nD τ).loc main_v1)
        = layer (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.lean ====
/-
  A ternary linear layer: `out[r, o] = Σ_k x[r, k] · T[o, k] + bias[o]` over x : [524288, 128], with the ternary
  weight `T[o, k] = (s(wp[o, k]) - s(wn[o, k])) · ½`, where `s(w) = 1` for `w ≥ 0` and `-1` otherwise.

  The kernel walks the rows of `x` in 64 blocks of 8192. At each block it rebuilds `T` from the two weight
  matrices, transposes it, multiplies the block by the transposed matrix into a zero accumulator (its operands
  narrowed to a shorter float format first, which is the identity on the extended reals) and adds the bias row.
  The reference builds `T` once, transposes it, contracts `x` with it and adds the bias broadcast along the rows.

  Both are the same sum, term by term: element `(p, o)` of a block is the layer at that block's row
  `8192·t + p` (Proof/KernelPayload.lean), the 64 blocks tile the result array (Proof/KernelValue.lean), and the
  reference's operations read at an index give the layer too (Proof/RefValue.lean). The only law of the extended
  reals used is `0 + a = a` for the accumulator, and the only constants evaluated are the words of `0`, `1` and
  `-1` (the reference spells `-1` as the negation of `1`); the precondition that the inputs are finite is not
  needed. The three frames are the generated ones (the reference's is its generated run with the result dropped),
  and the idealization rewrote nothing, so there is nothing to preserve.
-/
import proofs.«126079_j38998303048322_1_alg».proof.Defs
import proofs.«126079_j38998303048322_1_alg».proof.Proof.Gen.Kernel
import proofs.«126079_j38998303048322_1_alg».proof.Proof.Gen.Kernel.Skeleton
import proofs.«126079_j38998303048322_1_alg».proof.Proof.Gen.Kernel.Launch
import proofs.«126079_j38998303048322_1_alg».proof.Proof.Gen.Kernel.Points
import proofs.«126079_j38998303048322_1_alg».proof.Proof.Gen.Kernel.Frame
import proofs.«126079_j38998303048322_1_alg».proof.Proof.Gen.KernelIdeal
import proofs.«126079_j38998303048322_1_alg».proof.Proof.Gen.KernelIdeal.Skeleton
import proofs.«126079_j38998303048322_1_alg».proof.Proof.Gen.KernelIdeal.Launch
import proofs.«126079_j38998303048322_1_alg».proof.Proof.Gen.KernelIdeal.Points
import proofs.«126079_j38998303048322_1_alg».proof.Proof.Gen.KernelIdeal.Frame
import proofs.«126079_j38998303048322_1_alg».proof.Proof.Gen.ReferenceIdeal
import proofs.«126079_j38998303048322_1_alg».proof.Proof.Gen.Pre_finite_inputs
import proofs.«126079_j38998303048322_1_alg».proof.Proof.Gen.KernelIdeal.Value
import proofs.«126079_j38998303048322_1_alg».proof.Proof.Gen.ReferenceIdeal.Run
import proofs.«126079_j38998303048322_1_alg».proof.Proof.Gen.ReferenceIdeal.Read
import proofs.«126079_j38998303048322_1_alg».proof.Proof.Spec
import proofs.«126079_j38998303048322_1_alg».proof.Proof.RefValue
import proofs.«126079_j38998303048322_1_alg».proof.Proof.KernelValue
import Idealize.ShloMosaic.Adequacy
import Idealize.ShloMosaic.Init

noncomputable section

namespace Cert.Proof

open Idealize.ShloMosaic Idealize.ShloMosaic.TcCoe Idealize.SL.Sem TernaryLinear

/-- The word-level kernel terminates without a fault and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, both idealized programs end with the result array at the layer
    of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v15_eq _ _ _ _).trans (Cert.ReferenceIdeal.RefValue.result_eq_layer _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
